-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S128x8192 : Shape := ⟨2, ![128, 8192]⟩
abbrev S8192x1 : Shape := ⟨2, ![8192, 1]⟩
abbrev S1x8192 : Shape := ⟨2, ![1, 8192]⟩
abbrev S256x128 : Shape := ⟨2, ![256, 128]⟩
abbrev S256x1 : Shape := ⟨2, ![256, 1]⟩
abbrev S256x8192 : Shape := ⟨2, ![256, 8192]⟩
abbrev S256 : Shape := ⟨1, ![256]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S128x8192, .bf16⟩
  | .hbm, ⟨4, _⟩ => ⟨S8192x1, .i32⟩
  | .hbm, ⟨5, _⟩ => ⟨S1x8192, .i32⟩
  | .hbm, ⟨6, _⟩ => ⟨S8192x1, .f32⟩
  | .hbm, ⟨7, _⟩ => ⟨S_, .f32⟩
  | .hbm, ⟨8, _⟩ => ⟨S_, .f32⟩
  | .local _ .vmem, ⟨0, _⟩ => ⟨S256x128, .bf16⟩
  | .local _ .vmem, ⟨1, _⟩ => ⟨S256x128, .bf16⟩
  | .local _ .vmem, ⟨2, _⟩ => ⟨S128x8192, .bf16⟩
  | .local _ .vmem, ⟨3, _⟩ => ⟨S256x1, .i32⟩
  | .local _ .vmem, ⟨4, _⟩ => ⟨S256x1, .i32⟩
  | .local _ .vmem, ⟨5, _⟩ => ⟨S1x8192, .i32⟩
  | .local _ .vmem, ⟨6, _⟩ => ⟨S256x1, .f32⟩
  | .local _ .vmem, ⟨7, _⟩ => ⟨S256x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  transposes_S8192x128_S128x8192_1_0 : S8192x128.Transposes [1, 0] S128x8192
  shapeCasts_S8192_S8192x1 : S8192.ShapeCasts S8192x1
  shapeCasts_S8192_S1x8192 : S8192.ShapeCasts S1x8192
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  iota_S256x1_d0_w32 : S256x1.Iotas .tc 32 [0]
  iota_S1x8192_d1_w32 : S1x8192.Iotas .tc 32 [1]
  broadcasts_S256x1_S256x8192 : S256x1.Broadcasts S256x8192
  broadcasts_S1x8192_S256x8192 : S1x8192.Broadcasts S256x8192
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  reduces_S256x8192_S256 : S256x8192.Reduces [1] S256
  shapeCasts_S256_S256x1 : S256.ShapeCasts S256x1
  reducesTo_S8192x1_S_d0_1 : S8192x1.ReducesTo [0, 1] S_
  h_S_ : 0 < S_.numel
  dot_S256x128_S128x8192_S256x8192_1_0_0_1_n_n_wf : DotDims.WF S256x128 S128x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .bf16 = 32 ∨ (Rect.block (s := S8192x128) S256x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x8192.size a
  hwx0_1 : ∀ i : grid0.Coords, EltTy.bits .bf16 = 32 ∨ (Rect.block (s := S128x8192) S128x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .f32 = 32 ∨ (Rect.block (s := S8192x1) S256x1.size (cc0_transform_4 i) (hinb0_4 i)).WholeWords (EltTy.packing .f32)

variable [Facts₀]

def dot_S256x128_S128x8192_S256x8192_1_0_0_1_n_n : DotDims S256x128 S128x8192 S256x8192 where
  lhsContracting := [1]
  rhsContracting := [0]
  lhsNonContracting := [0]
  rhsNonContracting := [1]
  lhsBatch := []
  rhsBatch := []
  wf := dot_S256x128_S128x8192_S256x8192_1_0_0_1_n_n_wf

abbrev win0_0 : Pipeline.Window sig grid0 :=
  Pipeline.Window.ofSpec (Memref.whole main_v0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S_ : Shape := ⟨0, ![]⟩
abbrev S8192x1 : Shape := ⟨2, ![8192, 1]⟩
abbrev S1x8192 : Shape := ⟨2, ![1, 8192]⟩

abbrev nBuf : Space → Nat
  | .hbm => 42
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128x8192, .f32⟩
  | .hbm, ⟨3, _⟩ => ⟨S8192x8192, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x1, .i32⟩
  | .hbm, ⟨16, _⟩ => ⟨S1x8192, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_call1_v0 : Ref sig .tc := ⟨.hbm, 28, rfl⟩
abbrev main_call1_v1 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  The triplet loss with hardest-example mining, as one function of the embedding matrix x : [8192, 128] and the
  identifiers ids : [8192].

  For anchors i and candidates j the score is the Gram entry ⟨x_i, x_j⟩ = ∑_k x[i,k] · x[j,k], with the diagonal set to
  zero. A candidate is positive for i when the identifiers agree (the anchor itself is one), negative otherwise. The
  hardest negative is the maximum of the scores over the negatives, every positive standing in as −1e30; the hardest
  positive is the minimum of the scores over the positives, every negative standing in as +1e30. Row i costs
  max (0.2 + hardest negative − hardest positive, 0), and the loss is the sum of the 8192 row costs.

  Two ways of clearing the diagonal meet here. One selects: 0 where i = j, the score elsewhere. The other multiplies the
  score by 1 − [i = j], the indicator read as a number. On the extended reals s · (1 − 1) = s · 0 = 0 and
  s · (1 − 0) = s · 1 = s for every s, an infinity included, so both give the same matrix (`mask_mul`). The tests
  i = j are made on 32-bit words: row and column numbers stay below 8192, so the words are equal exactly when the
  numbers are (`cmpi_eq_ofNat`), also when the row number is assembled as tile · 256 + row-in-tile (`word_tile_row`).
-/
import Idealize.ShloMosaic.Lib.ValueIdx
import Idealize.ShloMosaic.Lib.IdealHost
import Idealize.ShloMosaic.PureOps.Ideal.Laws

noncomputable section

namespace Triplet

open Idealize.ShloMosaic Idealize.ShloMosaic.ValueIdx

/-- The embedding matrix at the ideal values. -/
abbrev Emb := (⟨2, ![8192, 128]⟩ : Shape).Idx → EReal
/-- The identifiers, one word per row. -/
abbrev Ids := (⟨1, ![8192]⟩ : Shape).Idx → BitVec 32

/-- The Gram entry of rows `i` and `j`. -/
def gram (x : Emb) (i j : Fin 8192) : EReal := ∑ k : Fin 128, x (ix2 i k) * x (ix2 j k)

/-- The score matrix: the Gram matrix with its diagonal cleared. -/
def score (x : Emb) (i j : Fin 8192) : EReal := if i.val = j.val then 0 else gram x i j

/-- The bit "rows `i` and `j` carry the same identifier". -/
def same (ids : Ids) (i j : Fin 8192) : BitVec 1 := IntOp.cmpi .eq (ids (ix1 i)) (ids (ix1 j))

/-- The hardest negative of anchor `i`: the largest score among the candidates with another identifier. -/
def hardNeg (x : Emb) (ids : Ids) (i : Fin 8192) : EReal :=
  (Finset.univ : Finset (Fin 8192)).fold max (Ideal.ofBits .f32 0xFF800000#32)
    (fun j => Scalar.select (~~~(same ids i j)) (score x i j) (Ideal.ofBits .f32 0xF149F2CA#32))

/-- The hardest positive of anchor `i`: the smallest score among the candidates with the same identifier. -/
def hardPos (x : Emb) (ids : Ids) (i : Fin 8192) : EReal :=
  (Finset.univ : Finset (Fin 8192)).fold min (Ideal.ofBits .f32 0x7F800000#32)
    (fun j => Scalar.select (same ids i j) (score x i j) (Ideal.ofBits .f32 0x7149F2CA#32))

/-- The hinge cost of anchor `i`. -/
def rowCost (x : Emb) (ids : Ids) (i : Fin 8192) : EReal :=
  max (Ideal.ofBits .f32 0x3E4CCCCD#32 + hardNeg x ids i - hardPos x ids i) (Ideal.ofBits .f32 0x00000000#32)

/-- The loss: the row costs summed from zero. -/
def total (x : Emb) (ids : Ids) : EReal := Ideal.ofBits .f32 0x00000000#32 + ∑ i : Fin 8192, rowCost x ids i

/-! ## Words that number rows and columns -/

/-- Two numbers below 2³² are equal exactly when their 32-bit words are. -/
theorem cmpi_eq_ofNat (a b : ℕ) (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h, show (BitVec.ofNat 32 a == BitVec.ofNat 32 b) = false from beq_eq_false_iff_ne.mpr hne]
    rfl

/-- The word of tile `t` times 256 plus the word of the row inside the tile is the word of the row's number. -/
theorem word_tile_row (t r : ℕ) :
    IntOp.addi (IntOp.muli (BitVec.ofNat 32 t) 256#32) (BitVec.ofNat 32 r) = BitVec.ofNat 32 (t * 256 + r) := by
  unfold IntOp.addi IntOp.muli
  rw [BitVec.ofNat_add, BitVec.ofNat_mul]

/-- Selecting on the word test "row number = column number" is selecting on the numbers. -/
theorem select_diag (i j : ℕ) (hi : i < 8192) (hj : j < 8192) (a b : EReal) :
    Scalar.select (IntOp.cmpi .eq (BitVec.ofNat 32 i) (BitVec.ofNat 32 j)) a b = if i = j then a else b := by
  rw [cmpi_eq_ofNat i j (by omega) (by omega)]
  by_cases h : i = j
  · rw [if_pos h, if_pos h]; exact select_one a b
  · rw [if_neg h, if_neg h]; exact select_zero a b

/-! ## Clearing the diagonal by a product -/

/-- A score times one minus an indicator bit read as a number is zero where the bit is set and the score elsewhere:
    on the extended reals `s · 0 = 0` and `s · 1 = s` hold for every `s`. -/
theorem mask_mul (s : EReal) (b : BitVec 1) :
    s * (Ideal.ofBits .f32 0x3F800000#32 - ((b.toNat : ℝ) : EReal)) = Scalar.select b 0 s := by
  rw [Ideal.ofBits_one_f32]
  by_cases h : b = 1#1
  · subst h
    rw [select_one]
    have : ((1 : EReal) - (((1#1 : BitVec 1).toNat : ℝ) : EReal)) = 0 := by
      show ((1 : ℝ) : EReal) - (((1 : ℕ) : ℝ) : EReal) = 0
      rw [Nat.cast_one, ← EReal.coe_sub, sub_self, EReal.coe_zero]
    rw [this, mul_zero]
  · rw [eq_zero_of_ne_one h, select_zero]
    have : ((1 : EReal) - (((0#1 : BitVec 1).toNat : ℝ) : EReal)) = 1 := by
      show (1 : EReal) - (((0 : ℕ) : ℝ) : EReal) = 1
      rw [Nat.cast_zero, EReal.coe_zero, sub_zero]
    rw [this, mul_one]

end Triplet

end
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.LibRowMin.lean ====
/-
  Rows of a matrix, continued: the minimum along a row, and sums over a column.

  • A reduction of an [a, b] matrix over axis 1 with a `min` body reads, at p, the b entries (p, 0) … (p, b − 1): their
    minimum folded from the initial value — for a vector reduction inside a kernel and for the host's reduce alike.
  • The index set of a rank-1 array [n] is `Fin n` through its one coordinate, and the index set of a column [n, 1] is
    `Fin n` through its first coordinate (the second is always 0): a sum over either is the sum over `Fin n`.
  • On one bit, exclusive-or with 1 is the complement.
-/
import Idealize.ShloMosaic.Lib.ValueLayout
import Idealize.ShloMosaic.Lib.ValueIdx
import Idealize.ShloMosaic.PureOps.Ideal.Laws

noncomputable section

namespace RowMin

open Idealize.ShloMosaic Idealize.ShloMosaic.ValueIdx

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The minimum along a row, at the ideal values: entry `p` is `min` folded from the accumulator's value over the
    row's `b` entries. -/
theorem multiReduction_min_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.minimumf.neutral φ hφ) (p : Fin a) :
    multiReduction .minimumf [1] ⟨1, ![a]⟩ v acc h hφ hacc (ix1 p)
      = (Finset.univ : Finset (Fin b)).fold min (Ideal.ofBits φ acc) (fun k => v (ix2 p k)) := by
  rw [multiReduction_minimumf_eq_fold]
  refine (h.fold_filter_drop_single FloatOps.minimumf _ v (ix1 p)).trans ?_
  exact congrArg (Finset.univ.fold min _) (funext fun k => congrArg v (lift_row h p k))

/-- The host's one-operand reduction with a `min` body along a row: the same fold, from the initial value's element. -/
theorem hostReduce_min_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.minimumf v init h' hu (ix1 p)
      = (Finset.univ : Finset (Fin b)).fold min (init (Shape.Idx.first hu)) (fun k => v (ix2 p k)) := by
  rw [Host.reduce_eq_fold_single FloatOps.minimumf v init h' h hu]
  exact congrArg (Finset.univ.fold min _) (funext fun k => congrArg v (lift_row h p k))

/-! ## Sums over a rank-1 array and over a column -/

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows. -/
theorem sum_col {M : Type*} [AddCommMonoid M] {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

/-! ## One bit -/

/-- On one bit, exclusive-or with the set bit is the complement. -/
theorem xor_one_eq_not (b : BitVec 1) : b ^^^ 1#1 = ~~~b := by
  by_cases h : b = 1#1
  · subst h; decide
  · rw [eq_zero_of_ne_one h]; decide

end RowMin

end
-- ==== Proof.RefRows.lean ====
/-
  The reference, read row by row.

  The reference forms the whole 8192 × 8192 Gram matrix of x with itself (a product with the transpose), clears its
  diagonal by multiplying with 1 − [i = j], selects the negatives (−1e30 elsewhere) and reduces each row by max from −∞,
  selects the positives (+1e30 elsewhere) and reduces each row by min from +∞, forms max (0.2 + that max − that min, 0)
  per row and sums the 8192 rows from zero. Read at coordinates this is, stage by stage, the specification: the matrix at
  (i, j) is `score x i j` (the product form of the cleared diagonal is the selected form, `mask_mul`), the two row
  reductions at i are `hardNeg` and `hardPos`, the row value is `rowCost`, the result `total`.
-/
import proofs.«106867_j7559142441509_1_alg».proof.Proof.Gen.ReferenceIdeal.Read
import proofs.«106867_j7559142441509_1_alg».proof.Proof.Spec
import proofs.«106867_j7559142441509_1_alg».proof.Proof.LibRowOps
import proofs.«106867_j7559142441509_1_alg».proof.Proof.LibRowMin

noncomputable section

namespace Cert.ReferenceIdeal.RefRows

open Cert.ReferenceIdeal Cert.ReferenceIdeal.Gen Cert.ReferenceIdeal.Read
open Idealize.ShloMosaic Idealize.ShloMosaic.ValueIdx Triplet

variable (x : Emb) (ids : Ids)

/-- The product with the transpose at (i, j) is the Gram entry of rows i and j. -/
theorem gram_apply (i j : Fin 8192) : val_main_v1 (F := Ideal) x (ix2 i j) = gram x i j := by
  rw [val_main_v1_apply]
  unfold gram
  refine Finset.sum_congr rfl fun k _ => ?_
  rw [val_main_v0_apply]
  have e1 : lidx_main_v1 (ix2 i j) k = ix2 i k :=
    funext fun a => Fin.ext (by match a with | ⟨0, _⟩ => rfl | ⟨1, _⟩ => rfl)
  have e2 : idx_main_v0 (ridx_main_v1 (ix2 i j) k) = ix2 j k :=
    funext fun a => Fin.ext (by match a with | ⟨0, _⟩ => rfl | ⟨1, _⟩ => rfl)
  rw [e1, e2]

/-- The Gram matrix times one minus the diagonal's indicator is the score matrix. -/
theorem score_apply (i j : Fin 8192) : val_main_v10 (F := Ideal) x (ix2 i j) = score x i j := by
  rw [val_main_v10_apply, gram_apply, val_main_v9_apply, val_main_v8_apply, val_main_cst_apply, val_main_v7_apply,
    val_main_v6_apply, val_main_v5_apply, val_main_v2_apply, val_main_v4_apply, val_main_c_apply, val_main_v3_apply]
  show gram x i j * (Ideal.ofBits .f32 0x3F800000#32
      - (((IntOp.cmpi .eq (IntOp.addi (BitVec.ofNat 32 i.val) 0#32) (BitVec.ofNat 32 j.val)).toNat : ℝ) : EReal)) = _
  rw [mask_mul, show IntOp.addi (BitVec.ofNat 32 i.val) 0#32 = BitVec.ofNat 32 i.val from BitVec.add_zero _,
    select_diag i.val j.val i.isLt j.isLt]
  rfl

/-- The identifiers broadcast along rows and along columns, compared: the bit "same identifier". -/
theorem same_apply (i j : Fin 8192) : val_main_v15 (F := Ideal) ids (ix2 i j) = same ids i j := by
  rw [val_main_v15_apply, val_main_v13_apply, val_main_v11_apply, val_main_v14_apply, val_main_v12_apply]
  have e1 : idx_main_v11 (idx_main_v13 (ix2 i j)) = ix1 i :=
    funext fun a => Fin.ext (by match a with | ⟨0, _⟩ => rfl)
  have e2 : idx_main_v12 (idx_main_v14 (ix2 i j)) = ix1 j :=
    funext fun a => Fin.ext (by match a with | ⟨0, _⟩ => rfl)
  rw [e1, e2]
  rfl

/-- The negatives' scores, the positives standing in as −1e30. -/
theorem negs_apply (i j : Fin 8192) : val_main_v17 (F := Ideal) x ids (ix2 i j)
    = Scalar.select (~~~(same ids i j)) (score x i j) (Ideal.ofBits .f32 0xF149F2CA#32) := by
  rw [val_main_v17_apply, val_main_v16_apply, same_apply, score_apply, val_main_call0_v1_apply, val_main_call0_v0_apply,
    val_main_cst_0_apply]
  rfl

/-- The positives' scores, the negatives standing in as +1e30. -/
theorem poss_apply (i j : Fin 8192) : val_main_v19 (F := Ideal) x ids (ix2 i j)
    = Scalar.select (same ids i j) (score x i j) (Ideal.ofBits .f32 0x7149F2CA#32) := by
  rw [val_main_v19_apply, same_apply, score_apply, val_main_call1_v1_apply, val_main_call1_v0_apply,
    val_main_cst_2_apply]
  rfl

/-- The row maximum of the negatives is the hardest negative. -/
theorem hardNeg_apply (i : Fin 8192) : val_main_v18 (F := Ideal) x ids (ix1 i) = hardNeg x ids i := by
  unfold val_main_v18
  rw [RowOps.hostReduce_max_row (val_main_v17 (F := Ideal) x ids) (val_main_cst_1 (F := Ideal))
    reducesTo_S8192x8192_S8192_d1 (by decide) h_S_ i]
  unfold hardNeg
  rw [val_main_cst_1_apply]
  exact congrArg (Finset.univ.fold max _) (funext fun j => negs_apply x ids i j)

/-- The row minimum of the positives is the hardest positive. -/
theorem hardPos_apply (i : Fin 8192) : val_main_v20 (F := Ideal) x ids (ix1 i) = hardPos x ids i := by
  unfold val_main_v20
  rw [RowMin.hostReduce_min_row (val_main_v19 (F := Ideal) x ids) (val_main_cst_3 (F := Ideal))
    reducesTo_S8192x8192_S8192_d1 (by decide) h_S_ i]
  unfold hardPos
  rw [val_main_cst_3_apply]
  exact congrArg (Finset.univ.fold min _) (funext fun j => poss_apply x ids i j)

/-- The row value is the row's hinge cost. -/
theorem rowCost_apply (i : Fin 8192) : val_main_v25 (F := Ideal) x ids (ix1 i) = rowCost x ids i := by
  rw [val_main_v25_apply, val_main_v23_apply, val_main_v22_apply, hardNeg_apply, hardPos_apply, val_main_v21_apply,
    val_main_cst_4_apply, val_main_v24_apply, val_main_cst_5_apply]
  rfl

/-- The reference's result is the loss. -/
theorem total_eq : val_main_v26 (F := Ideal) x ids = fun _ => total x ids := by
  funext i
  rw [val_main_v26_apply, val_main_cst_6_apply, RowMin.sum_idx1]
  unfold total
  exact congrArg (fun s : EReal => Ideal.ofBits .f32 0x00000000#32 + s)
    (Finset.sum_congr rfl fun a _ => rowCost_apply x ids a)

end Cert.ReferenceIdeal.RefRows

end
-- ==== Proof.KernelRows.lean ====
/-
  One tile of the kernel, read row by row.

  At grid point t the body holds rows 256·t … 256·t + 255 of x (a 256 × 128 block), the whole transpose of x (128 × 8192),
  the identifiers of those rows (a 256 × 1 column) and all identifiers (a 1 × 8192 row). It multiplies the block with the
  transpose — entry (r, j) is ∑_k block[r,k] · xᵀ[k,j] —, clears the entries whose column number j equals the row's
  number t·256 + r (both as 32-bit words), masks by the identifier test, reduces each row by max and by min, and stores
  max (0.2 + max − min, 0) for each of its 256 rows: `tileCost`. With the blocks identified as parts of the arrays this
  is the specification's `rowCost` of row t·256 + r (`tileCost_eq_rowCost`).
-/
import proofs.«106867_j7559142441509_1_alg».proof.Proof.Gen.KernelIdeal.Skeleton
import proofs.«106867_j7559142441509_1_alg».proof.Proof.Spec
import proofs.«106867_j7559142441509_1_alg».proof.Proof.LibRowOps
import proofs.«106867_j7559142441509_1_alg».proof.Proof.LibRowMin
import Idealize.ShloMosaic.Lib.ValueLayout
import Idealize.ShloMosaic.Lib.Pipeline.Value

noncomputable section

namespace Cert.KernelIdeal.Rows

open Cert.KernelIdeal Cert.KernelIdeal.Gen
open Idealize.ShloMosaic Idealize.ShloMosaic.ValueIdx Triplet

/-! ## The block product at an entry -/

theorem lhs_0 (i : S256x8192.Idx) (q : dot_S256x128_S128x8192_S256x8192_1_0_0_1_n_n.contr.Idx) : (dot_S256x128_S128x8192_S256x8192_1_0_0_1_n_n.lhsIdx i q 0).val = (i 0).val := by
  unfold DotDims.lhsIdx
  rw [dif_neg (show ¬(0 : Fin S256x128.rank) ∈ dot_S256x128_S128x8192_S256x8192_1_0_0_1_n_n.lhsBatch by decide), dif_pos (show (0 : Fin S256x128.rank) ∈ dot_S256x128_S128x8192_S256x8192_1_0_0_1_n_n.lhsNonContracting by decide)]
  rfl
theorem lhs_1 (i : S256x8192.Idx) (q : dot_S256x128_S128x8192_S256x8192_1_0_0_1_n_n.contr.Idx) : (dot_S256x128_S128x8192_S256x8192_1_0_0_1_n_n.lhsIdx i q 1).val = (q ⟨0, by decide⟩).val :=
  dot_S256x128_S128x8192_S256x8192_1_0_0_1_n_n.lhsIdx_val_of_single rfl i q
theorem rhs_0 (i : S256x8192.Idx) (q : dot_S256x128_S128x8192_S256x8192_1_0_0_1_n_n.contr.Idx) : (dot_S256x128_S128x8192_S256x8192_1_0_0_1_n_n.rhsIdx i q 0).val = (q ⟨0, by decide⟩).val :=
  dot_S256x128_S128x8192_S256x8192_1_0_0_1_n_n.rhsIdx_val_of_single rfl i q
theorem rhs_1 (i : S256x8192.Idx) (q : dot_S256x128_S128x8192_S256x8192_1_0_0_1_n_n.contr.Idx) : (dot_S256x128_S128x8192_S256x8192_1_0_0_1_n_n.rhsIdx i q 1).val = (i 1).val := by
  unfold DotDims.rhsIdx
  rw [dif_neg (show ¬(1 : Fin S128x8192.rank) ∈ dot_S256x128_S128x8192_S256x8192_1_0_0_1_n_n.rhsBatch by decide), dif_pos (show (1 : Fin S128x8192.rank) ∈ dot_S256x128_S128x8192_S256x8192_1_0_0_1_n_n.rhsNonContracting by decide)]
  rfl

/-- The product of a 256 × 128 block with a 128 × 8192 matrix, accumulated from zero: entry (r, j) is the sum over the
    128 shared coordinates. -/
theorem matmul_tile (a : FVec Ideal S256x128 .bf16) (b : FVec Ideal S128x8192 .bf16) (r : Fin 256) (j : Fin 8192) :
    matmul dot_S256x128_S128x8192_S256x8192_1_0_0_1_n_n none a b (constant S256x8192 .f32 0x00000000#32) (ix2 r j)
      = ∑ k : Fin 128, a (ix2 r k) * b (ix2 k j) := by
  simp only [matmul]
  rw [Ideal.matmul_constant_zero_apply, ← Equiv.sum_comp (ValueIdx.contrEquiv1 dot_S256x128_S128x8192_S256x8192_1_0_0_1_n_n 128 rfl rfl).symm]
  refine Finset.sum_congr rfl fun k _ => ?_
  have hk := ValueIdx.contrEquiv1_symm_val dot_S256x128_S128x8192_S256x8192_1_0_0_1_n_n 128 rfl rfl k
  have el : dot_S256x128_S128x8192_S256x8192_1_0_0_1_n_n.lhsIdx (ix2 r j) ((ValueIdx.contrEquiv1 dot_S256x128_S128x8192_S256x8192_1_0_0_1_n_n 128 rfl rfl).symm k) = ix2 r k := funext fun c => Fin.ext (by
    match c with
    | ⟨0, _⟩ => exact lhs_0 _ _
    | ⟨1, _⟩ => exact (lhs_1 _ _).trans hk)
  have er : dot_S256x128_S128x8192_S256x8192_1_0_0_1_n_n.rhsIdx (ix2 r j) ((ValueIdx.contrEquiv1 dot_S256x128_S128x8192_S256x8192_1_0_0_1_n_n 128 rfl rfl).symm k) = ix2 k j := funext fun c => Fin.ext (by
    match c with
    | ⟨0, _⟩ => exact (rhs_0 _ _).trans hk
    | ⟨1, _⟩ => exact rhs_1 _ _)
  rw [el, er]

/-! ## Row numbers, column numbers, identifiers: each broadcast read at (r, j) -/

theorem xori_apply {s : Shape} {w : ℕ} (a b : IVec s w) (i : s.Idx) : xori a b i = IntOp.xori (a i) (b i) := rfl
theorem cmpi_apply {s : Shape} {w : ℕ} (p : CmpIPredicate) (a b : IVec s w) (i : s.Idx) : cmpi p a b i = IntOp.cmpi p (a i) (b i) := rfl

/-- The row's number, tile · 256 + row-in-tile, broadcast along the row. -/
theorem rownum_apply (t : BitVec 32) (r : Fin 256) (j : Fin 8192) :
    broadcastTo S256x8192 (addi (broadcast S256x1 (Scalar.muli t 256#32)) (iota .tc S256x1 32 [0] iota_S256x1_d0_w32))
        broadcasts_S256x1_S256x8192 (ix2 r j)
      = IntOp.addi (IntOp.muli t 256#32) (BitVec.ofNat 32 r.val) := by
  rw [RowOps.broadcastTo_a1_ab_apply]
  show IntOp.addi (IntOp.muli t 256#32) (BitVec.ofNat 32 (0 * 256 + r.val)) = _
  rw [Nat.zero_mul, Nat.zero_add]

/-- The column's number, broadcast down the column. -/
theorem colnum_apply (r : Fin 256) (j : Fin 8192) :
    broadcastTo S256x8192 (iota .tc S1x8192 32 [1] iota_S1x8192_d1_w32) broadcasts_S1x8192_S256x8192 (ix2 r j)
      = BitVec.ofNat 32 j.val := by
  rw [broadcastTo_1b_ab_apply]
  show BitVec.ofNat 32 (0 * 8192 + j.val) = _
  rw [Nat.zero_mul, Nat.zero_add]

/-- The rows' identifiers, broadcast along the rows. -/
theorem idrow_apply (rb : Vec Ideal S256x1 .i32) (r : Fin 256) (j : Fin 8192) :
    broadcastTo S256x8192 (shapeCast S256x1 rb shapeCasts_S256x1_S256x1) broadcasts_S256x1_S256x8192 (ix2 r j)
      = rb (ix2 r (0 : Fin 1)) := by
  rw [RowOps.broadcastTo_a1_ab_apply, shapeCast_self]

/-- All identifiers, broadcast down the columns. -/
theorem idcol_apply (cb : Vec Ideal S1x8192 .i32) (r : Fin 256) (j : Fin 8192) :
    broadcastTo S256x8192 (shapeCast S1x8192 cb shapeCasts_S1x8192_S1x8192) broadcasts_S1x8192_S256x8192 (ix2 r j)
      = cb (ix2 (0 : Fin 1) j) := by
  rw [broadcastTo_1b_ab_apply, shapeCast_self]

/-- A row maximum kept as a column: entry (r, 0) is `max` folded from −∞ over row r. -/
theorem rowmax_apply (v : FVec Ideal S256x8192 .f32) (r : Fin 256) (u : Fin 1) :
    shapeCast S256x1 (multiReduction .maximumf [1] S256 v 0xFF800000#32 reduces_S256x8192_S256 (.inl rfl) rfl)
        shapeCasts_S256_S256x1 (ix2 r u)
      = (Finset.univ : Finset (Fin 8192)).fold max (Ideal.ofBits .f32 0xFF800000#32) (fun j => v (ix2 r j)) := by
  rw [RowOps.shapeCast_a_a1_apply]
  exact RowOps.multiReduction_max_row v _ _ _ _ r

/-- A row minimum kept as a column: entry (r, 0) is `min` folded from +∞ over row r. -/
theorem rowmin_apply (v : FVec Ideal S256x8192 .f32) (r : Fin 256) (u : Fin 1) :
    shapeCast S256x1 (multiReduction .minimumf [1] S256 v 0x7F800000#32 reduces_S256x8192_S256 (.inl rfl) rfl)
        shapeCasts_S256_S256x1 (ix2 r u)
      = (Finset.univ : Finset (Fin 8192)).fold min (Ideal.ofBits .f32 0x7F800000#32) (fun j => v (ix2 r j)) := by
  rw [RowOps.shapeCast_a_a1_apply]
  exact RowMin.multiReduction_min_row v _ _ _ _ r

/-! ## The tile's row cost -/

/-- Entry (r, j) of the tile's score matrix: zero where the column number is the row's number, the product elsewhere. -/
def tileScore (i : grid0.Coords) (xb : Vec Ideal S256x128 .bf16) (wb : Vec Ideal S128x8192 .bf16) (r : Fin 256) (j : Fin 8192) : EReal :=
  Scalar.select (IntOp.cmpi .eq (IntOp.addi (IntOp.muli (BitVec.ofNat 32 (i 0).val) 256#32) (BitVec.ofNat 32 r.val)) (BitVec.ofNat 32 j.val))
    (Ideal.ofBits .f32 0x00000000#32) (∑ k : Fin 128, xb (ix2 r k) * wb (ix2 k j))

/-- The bit "row r of the tile and column j carry the same identifier". -/
def tileSame (rb : Vec Ideal S256x1 .i32) (cb : Vec Ideal S1x8192 .i32) (r : Fin 256) (j : Fin 8192) : BitVec 1 :=
  IntOp.cmpi .eq (rb (ix2 r (0 : Fin 1))) (cb (ix2 (0 : Fin 1) j))

/-- What the tile stores for its row r. -/
def tileCost (i : grid0.Coords) (xb : Vec Ideal S256x128 .bf16) (wb : Vec Ideal S128x8192 .bf16) (rb : Vec Ideal S256x1 .i32)
    (cb : Vec Ideal S1x8192 .i32) (r : Fin 256) : EReal :=
  max (Ideal.ofBits .f32 0x3E4CCCCD#32
      + (Finset.univ : Finset (Fin 8192)).fold max (Ideal.ofBits .f32 0xFF800000#32)
          (fun j => Scalar.select (IntOp.xori (tileSame rb cb r j) 1#1) (tileScore i xb wb r j) (Ideal.ofBits .f32 0xF149F2CA#32))
      - (Finset.univ : Finset (Fin 8192)).fold min (Ideal.ofBits .f32 0x7F800000#32)
          (fun j => Scalar.select (tileSame rb cb r j) (tileScore i xb wb r j) (Ideal.ofBits .f32 0x7149F2CA#32)))
    (Ideal.ofBits .f32 0x00000000#32)

/-- The stored value at (r, 0) is the tile's row cost. -/
theorem pay_apply (i : grid0.Coords) (xb : Vec Ideal S256x128 .bf16) (wb : Vec Ideal S128x8192 .bf16) (rb : Vec Ideal S256x1 .i32)
    (cb : Vec Ideal S1x8192 .i32) (r : Fin 256) (u : Fin 1) :
    k0_pay1 (F := Ideal) i xb wb rb cb (ix2 r u) = tileCost i xb wb rb cb r := by
  unfold k0_pay1
  dsimp only
  rw [maximumf_apply, subf_apply, addf_apply, rowmax_apply, rowmin_apply]
  have h1 := fun x : Fin 8192 => colnum_apply r x
  have h2 := fun x : Fin 8192 => rownum_apply (BitVec.ofNat 32 (i 0).val) r x
  have h3 := fun x : Fin 8192 => idrow_apply rb r x
  have h4 := fun x : Fin 8192 => idcol_apply cb r x
  have h5 := fun x : Fin 8192 => matmul_tile (shapeCast S256x128 xb shapeCasts_S256x128_S256x128)
    (shapeCast S128x8192 wb shapeCasts_S128x8192_S128x8192) r x
  simp only [select_apply, xori_apply, cmpi_apply, constantI_apply, broadcast_apply, h1, h2, h3, h4, h5]
  simp only [shapeCast_self]
  rfl

/-- With the tile's blocks identified as parts of the arrays — the row block as rows t·256 … of x, the second operand as
    the transpose of x, the identifier column and row as entries of ids — the tile's cost for its row r is the
    specification's cost of row R = t·256 + r: the row-number test is the test R = j on numbers, the product is the Gram
    entry, exclusive-or with the set bit is the complement. -/
theorem tileCost_eq_rowCost (x : Emb) (ids : Ids) (i : grid0.Coords) (xb : Vec Ideal S256x128 .bf16)
    (wb : Vec Ideal S128x8192 .bf16) (rb : Vec Ideal S256x1 .i32) (cb : Vec Ideal S1x8192 .i32) (r : Fin 256)
    (R : Fin 8192) (hR : R.val = (i 0).val * 256 + r.val)
    (hx : ∀ k : Fin 128, xb (ix2 r k) = x (ix2 R k))
    (hw : ∀ (k : Fin 128) (j : Fin 8192), wb (ix2 k j) = x (ix2 j k))
    (hr : rb (ix2 r (0 : Fin 1)) = ids (ix1 R))
    (hc : ∀ j : Fin 8192, cb (ix2 (0 : Fin 1) j) = ids (ix1 j)) :
    tileCost i xb wb rb cb r = rowCost x ids R := by
  have hs : ∀ j, tileScore i xb wb r j = score x R j := fun j => by
    unfold tileScore score
    rw [word_tile_row, ← hR, select_diag R.val j.val R.isLt j.isLt, Ideal.ofBits_zero_f32]
    refine if_congr Iff.rfl rfl ?_
    unfold gram
    exact Finset.sum_congr rfl fun k _ => by rw [hx k, hw k j]
  have hm : ∀ j, tileSame rb cb r j = same ids R j := fun j => by
    unfold tileSame same; rw [hr, hc j]
  unfold tileCost rowCost hardNeg hardPos
  simp only [hs, hm, IntOp.xori, RowMin.xor_one_eq_not]

end Cert.KernelIdeal.Rows

end
-- ==== Proof.KernelValue.lean ====
/-
  The kernel's result as a function of the arguments.

  Before the region the host rounds x to the narrower float format (the identity on the extended reals), transposes it,
  and views the identifiers as a column [8192, 1] and as a row [1, 8192]. Grid point t reads rows 256·t … 256·t + 255 of x
  and of the identifier column, and the whole transpose and the whole identifier row; it writes the 256 costs of its rows
  into block t of the [8192, 1] output. Entry (r, ·) of that block is the specification's cost of row 256·t + r
  (`flushed_eq`), the 32 blocks tile the output (`cover`), so the output array ends as the column of all 8192 row costs
  (`final`). After the region the host sums that column from zero: the loss (`tail_eq`).
-/
import proofs.«106867_j7559142441509_1_alg».proof.Proof.KernelIdealFrame
import proofs.«106867_j7559142441509_1_alg».proof.Proof.KernelRows
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RowsValue

open Cert.KernelIdeal Cert.KernelIdeal.Gen Cert.KernelIdeal.GenP Cert.KernelIdeal.Rows
open Idealize.ShloMosaic.ValueIdx Triplet

variable (m : (ℓ : Loc nD τ sig) → Buf (Elt Ideal) ℓ) (ρ : Dev nD → PrngReg)

/-- The embedding matrix as launched on core `c`. -/
abbrev xs (c : Dev nD) : Emb := m ((c : Thread nD τ).loc main_arg0)
/-- The identifiers as launched on core `c`. -/
abbrev idsOf (c : Dev nD) : Ids := m ((c : Thread nD τ).loc main_arg1)

/-! ## The arrays the region finds -/

/-- The rounded copy of x is x: a change of float format is the identity on the extended reals. -/
theorem V_v0 (c : Dev nD) : (V m c main_v0 : S8192x128.Idx → EReal) = xs m c := by
  show StableHlo.after hostOps0 (fun b => m (c, b)) (Proc.devRef .tc main_v0) = _
  after_results
  rfl

/-- The transposed copy at (k, j) is x at (j, k). -/
theorem V_v1 (c : Dev nD) (k : Fin 128) (j : Fin 8192) :
    (V m c main_v1 : S128x8192.Idx → EReal) (ix2 k j) = xs m c (ix2 j k) := by
  have e : (V m c main_v1 : S128x8192.Idx → EReal)
      = transpose S128x8192 [1, 0] (xs m c) transposes_S8192x128_S128x8192_1_0 := by
    show StableHlo.after hostOps0 (fun b => m (c, b)) (Proc.devRef .tc main_v1) = _
    after_results
    rfl
  rw [e]
  exact transpose_ix2_apply _ _ k j

/-- The identifier column at (i, ·) is identifier i. -/
theorem V_v2 (c : Dev nD) (i : Fin 8192) (u : Fin 1) :
    (V m c main_v2 : S8192x1.Idx → BitVec 32) (ix2 i u) = idsOf m c (ix1 i) := by
  have e : (V m c main_v2 : S8192x1.Idx → BitVec 32) = shapeCast S8192x1 (idsOf m c) shapeCasts_S8192_S8192x1 := by
    show StableHlo.after hostOps0 (fun b => m (c, b)) (Proc.devRef .tc main_v2) = _
    after_results
    rfl
  rw [e]
  exact RowOps.shapeCast_a_a1_apply _ _ i u

/-- The identifier row at (·, j) is identifier j. -/
theorem V_v3 (c : Dev nD) (u : Fin 1) (j : Fin 8192) :
    (V m c main_v3 : S1x8192.Idx → BitVec 32) (ix2 u j) = idsOf m c (ix1 j) := by
  have e : (V m c main_v3 : S1x8192.Idx → BitVec 32) = shapeCast S1x8192 (idsOf m c) shapeCasts_S8192_S1x8192 := by
    show StableHlo.after hostOps0 (fun b => m (c, b)) (Proc.devRef .tc main_v3) = _
    after_results
    rfl
  rw [e]
  exact shapeCast_a_1a_apply _ _ u j

/-! ## The blocks at a grid point -/

theorem hz : (![0, 0] : Fin 2 → Nat) = fun _ => 0 := funext fun a => by fin_cases a <;> rfl

/-- The index maps, decided over the 32 grid points: the row-block windows (x's rows, the identifier column, the output)
    sit at block (t, 0), the resident windows (the transpose, the identifier row) at block (0, 0); and the grid's one
    coordinate at point t is t. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ ((grid0.coords t) 0).val = t.val :=
  (by decide +kernel : ∀ t : Fin grid0.N, _)

/-- Row r of the tile at grid point t, as a row of the whole matrix. -/
def rowOf (t : Fin cfg0.N) (r : Fin 256) : Fin 8192 :=
  ⟨t.val * 256 + r.val, by have := t.isLt; have hN : cfg0.N = 32 := N_0; have := r.isLt; omega⟩

/-- The row block of x at point t: its row r is row 256·t + r of x. -/
theorem iblk0_apply (c : Dev nD) (t : Fin cfg0.N) (r : Fin 256) (k : Fin 128) :
    (iblk m c 0 t : Vec Ideal S256x128 .bf16) (ix2 r k) = xs m c (ix2 (rowOf t r) k) := by
  obtain ⟨e0, e1, -⟩ := idx_facts t
  unfold iblk
  rw [View.read_apply]
  show (V m c main_v0 : S8192x128.Idx → EReal) _ = _
  rw [V_v0]
  refine congrArg (xs m c) (funext fun a => Fin.ext ?_)
  match a with
  | ⟨0, _⟩ => show win0_0.index t 0 * 256 + 1 * r.val = t.val * 256 + r.val; rw [e0]; omega
  | ⟨1, _⟩ => show win0_0.index t 1 * 128 + 1 * k.val = k.val; rw [e1]; omega

/-- The resident transpose at any point: entry (k, j) is x at (j, k). -/
theorem iblk1_apply (c : Dev nD) (t : Fin cfg0.N) (k : Fin 128) (j : Fin 8192) :
    (iblk m c 1 t : Vec Ideal S128x8192 .bf16) (ix2 k j) = xs m c (ix2 j k) := by
  obtain ⟨-, -, e0, e1, -⟩ := idx_facts t
  unfold iblk
  rw [View.read_apply]
  refine Eq.trans (congrArg (V m c main_v1 : S128x8192.Idx → EReal) (funext fun a => Fin.ext ?_)) (V_v1 m c k j)
  match a with
  | ⟨0, _⟩ => show win0_1.index t 0 * 128 + 1 * k.val = k.val; rw [e0]; omega
  | ⟨1, _⟩ => show win0_1.index t 1 * 8192 + 1 * j.val = j.val; rw [e1]; omega

/-- The identifier column's block at point t: its row r is identifier 256·t + r. -/
theorem iblk2_apply (c : Dev nD) (t : Fin cfg0.N) (r : Fin 256) (u : Fin 1) :
    (iblk m c 2 t : Vec Ideal S256x1 .i32) (ix2 r u) = idsOf m c (ix1 (rowOf t r)) := by
  obtain ⟨-, -, -, -, e0, e1, -⟩ := idx_facts t
  unfold iblk
  rw [View.read_apply]
  refine Eq.trans (congrArg (V m c main_v2 : S8192x1.Idx → BitVec 32) (funext fun a => Fin.ext ?_)) (V_v2 m c (rowOf t r) u)
  match a with
  | ⟨0, _⟩ => show win0_2.index t 0 * 256 + 1 * r.val = t.val * 256 + r.val; rw [e0]; omega
  | ⟨1, _⟩ => show win0_2.index t 1 * 1 + 1 * u.val = u.val; rw [e1]; omega

/-- The resident identifier row at any point: entry (·, j) is identifier j. -/
theorem iblk3_apply (c : Dev nD) (t : Fin cfg0.N) (u : Fin 1) (j : Fin 8192) :
    (iblk m c 3 t : Vec Ideal S1x8192 .i32) (ix2 u j) = idsOf m c (ix1 j) := by
  obtain ⟨-, -, -, -, -, -, e0, e1, -⟩ := idx_facts t
  unfold iblk
  rw [View.read_apply]
  refine Eq.trans (congrArg (V m c main_v3 : S1x8192.Idx → BitVec 32) (funext fun a => Fin.ext ?_)) (V_v3 m c u j)
  match a with
  | ⟨0, _⟩ => show win0_3.index t 0 * 1 + 1 * u.val = u.val; rw [e0]; omega
  | ⟨1, _⟩ => show win0_3.index t 1 * 8192 + 1 * j.val = j.val; rw [e1]; omega

/-! ## The output array -/

/-- The column of all row costs. -/
def costArr (c : Dev nD) : S8192x1.Idx → EReal :=
  fun y => rowCost (xs m c) (idsOf m c) ⟨(y 0).val, idx2_lt0 y⟩

/-- What point t writes back is block t of the column of row costs. -/
theorem flushed_eq (c : Dev nD) (t : Fin cfg0.N) :
    (dats m 0 c).flushed 4 t = ((cfg0.win 4).blk t).view.read (Elt Ideal) (costArr m c) := by
  obtain ⟨-, -, -, -, -, -, -, -, e0, e1, eg⟩ := idx_facts t
  show (cfg0.win 4).cut (grid0.coords t) ((dats m 0 c).after 4 t) = _
  rw [after0_4]
  unfold out0_4
  rw [View.canon_unit_zero hz]
  simp only [View.ld_unit_zero (S := S256x128) hz, View.ld_unit_zero (S := S128x8192) hz,
    View.ld_unit_zero (S := S256x1) hz, View.ld_unit_zero (S := S1x8192) hz]
  funext y
  obtain ⟨r, u, rfl⟩ : ∃ (r : Fin 256) (u : Fin 1), y = ix2 r u := ⟨y 0, y 1, eq_ix2 y⟩
  show k0_pay1 (F := Ideal) (grid0.coords t) (iblk m c 0 t) (iblk m c 1 t) (iblk m c 2 t) (iblk m c 3 t) (ix2 r u)
    = costArr m c (((cfg0.win 4).blk t).view.emb (ix2 r u))
  refine (pay_apply (grid0.coords t) (iblk m c 0 t) (iblk m c 1 t) (iblk m c 2 t) (iblk m c 3 t) r u).trans ?_
  refine (tileCost_eq_rowCost (xs m c) (idsOf m c) (grid0.coords t) (iblk m c 0 t) (iblk m c 1 t) (iblk m c 2 t)
    (iblk m c 3 t) r (rowOf t r) (by show t.val * 256 + r.val = _; rw [eg])
    (fun k => iblk0_apply m c t r k) (fun k j => iblk1_apply m c t k j) (iblk2_apply m c t r 0)
    (fun j => iblk3_apply m c t 0 j)).trans ?_
  unfold costArr
  refine congrArg (rowCost (xs m c) (idsOf m c)) (Fin.ext ?_)
  show t.val * 256 + r.val = win0_4.index t 0 * 256 + 1 * r.val
  rw [e0]; omega

/-- An index of the output is in point t's block iff each coordinate is in the block's range on its axis. -/
theorem mem_blk (t : Fin cfg0.N) (i : S8192x1.Idx) :
    i ∈ ((cfg0.win 4).blk t).view.set ↔ ∀ a : Fin 2, win0_4.index t a * S256x1.size a ≤ (i a).val
      ∧ (i a).val < win0_4.index t a * S256x1.size a + S256x1.size a := by
  show i ∈ ((View.whole main_v4).slice (win0_4.rect t)).set ↔ _
  rw [View.set_slice_whole, Rect.mem_set_unit]
  exact Iff.rfl

/-- Row i of the output lies in the block of point i / 256. -/
theorem cover (i : S8192x1.Idx) :
    ∃ t : Fin cfg0.N, (cfg0.win 4).flush t = true ∧ i ∈ ((cfg0.win 4).blk t).view.set := by
  have hi0 : (i 0).val < 8192 := idx2_lt0 i
  have hi1 : (i 1).val < 1 := idx2_lt1 i
  have hN : cfg0.N = 32 := N_0
  have ht : (i 0).val / 256 < cfg0.N := by omega
  obtain ⟨-, -, -, -, -, -, -, -, e0, e1, -⟩ := idx_facts ⟨(i 0).val / 256, ht⟩
  refine ⟨⟨(i 0).val / 256, ht⟩, flush0_4 _, ?_⟩
  rw [mem_blk]
  intro a
  match a with
  | ⟨0, _⟩ =>
    show win0_4.index ⟨(i 0).val / 256, ht⟩ 0 * 256 ≤ (i 0).val ∧ (i 0).val < win0_4.index ⟨(i 0).val / 256, ht⟩ 0 * 256 + 256
    rw [e0]; show (i 0).val / 256 * 256 ≤ (i 0).val ∧ (i 0).val < (i 0).val / 256 * 256 + 256; omega
  | ⟨1, _⟩ =>
    show win0_4.index ⟨(i 0).val / 256, ht⟩ 1 * 1 ≤ (i 1).val ∧ (i 1).val < win0_4.index ⟨(i 0).val / 256, ht⟩ 1 * 1 + 1
    rw [e1]; omega

/-- The output array after the region: the column of all row costs. -/
theorem final (c : Dev nD) : (dats m 0 c).arrAt 4 cfg0.N = costArr m c :=
  (dats m 0 c).arrAt_eq_of_cover 4 (costArr m c) (fun t _ => flushed_eq m c t) (fun i => cover i)

/-! ## The sum after the region, and the run -/

/-- The host's sum of the column of row costs, from zero, is the loss. -/
theorem sum_costs (c : Dev nD) :
    Host.reduceAdd (costArr m c) (constant (F := Ideal) S_ .f32 0x00000000#32) reducesTo_S8192x1_S_d0_1 h_S_
      = fun _ => total (xs m c) (idsOf m c) := by
  funext i
  simp only [Host.reduceAdd, Ideal.hostReduceAdd_def]
  rw [Ideal.hostReduceAdd_total reducesTo_S8192x1_S_d0_1 (fun b => b.elim0) (costArr m c) _ i, RowMin.sum_col]
  rfl

/-- What the lines after the region leave in the result buffer: the loss. -/
theorem tail_eq (c : Dev nD) :
    Pipeline.afterTail₀ cfgs (dats m) 0 (V0 m) [hostOps1] c main_v5 = fun _ => total (xs m c) (idsOf m c) := by
  unfold Pipeline.afterTail₀
  show StableHlo.after hostOps1 _ (Proc.devRef .tc main_v5) = _
  after_results
  rw [(Pipeline.withArrays_arr spec0 launch0.win.arr_inj c _ _ 4).trans (final m c)]
  exact sum_costs m c

/-- The kernel's run, read: the result buffer ends at the loss of the arguments, the arguments unchanged. -/
theorem run : θ_run defs (onTc (τ := τ) (main (F := Ideal))) ⟨m, fun _ => 0, ρ⟩ fun r => ∀ c : Dev nD,
      r.2.mem ((c.tc : Thread nD τ).loc main_v5) = (fun _ => total (xs m c) (idsOf m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RowsValue

end
-- ==== Proof.lean ====
/-
  The triplet loss with hardest-example mining: a tiled kernel against the whole-matrix reference, over the extended reals.

  Both programs compute, from embeddings x : [8192, 128] and identifiers ids : [8192],
      ∑_i max (0.2 + max_{j : ids_j ≠ ids_i} s_ij − min_{j : ids_j = ids_i} s_ij, 0),
  where s is the Gram matrix of x with its diagonal set to zero, a masked-out entry stands in as −1e30 in the maximum and as
  +1e30 in the minimum, and the row reductions start from −∞ and +∞ (Proof/Spec.lean: `Triplet.total`).

  The reference forms the whole 8192 × 8192 matrix, clears the diagonal by a product with 1 − [i = j], and reduces the rows
  (Proof/RefRows.lean, over the reference's run read one operation at a time). The kernel works on 32 tiles of 256 rows: each
  multiplies its row block with the transpose of x, clears the entries whose column number equals the row's number by a
  selection, masks, reduces and stores its 256 row costs; the host sums the 8192 costs (Proof/KernelRows.lean: one tile;
  Proof/KernelValue.lean: the tiles assembled and the final sum). What joins the two sides: a change of float format is the
  identity; the block product is the Gram entry; s · (1 − 1) = 0 and s · (1 − 0) = s on every extended real, so clearing by
  a product is clearing by a selection; on row and column numbers below 8192 the 32-bit word test is the test on numbers;
  a sum over the indices of a column [8192, 1] is the sum over its 8192 rows. No step needs the inputs to be finite.

  Nothing is idealized between the printed kernel and its reading over the extended reals (the pass rewrote no operation),
  so that claim is trivial. The three frames: the kernels' by the frame run of each program, the reference's by its run.
-/
import proofs.«106867_j7559142441509_1_alg».proof.Defs
import proofs.«106867_j7559142441509_1_alg».proof.Proof.Gen.Kernel
import proofs.«106867_j7559142441509_1_alg».proof.Proof.Gen.KernelIdeal
import proofs.«106867_j7559142441509_1_alg».proof.Proof.Gen.ReferenceIdeal
import proofs.«106867_j7559142441509_1_alg».proof.Proof.Gen.Pre_finite_inputs
import proofs.«106867_j7559142441509_1_alg».proof.Proof.Gen.ReferenceIdeal.Run
import proofs.«106867_j7559142441509_1_alg».proof.Proof.Gen.ReferenceIdeal.Read
import proofs.«106867_j7559142441509_1_alg».proof.Proof.KernelFrame
import proofs.«106867_j7559142441509_1_alg».proof.Proof.KernelIdealFrame
import proofs.«106867_j7559142441509_1_alg».proof.Proof.RefRows
import proofs.«106867_j7559142441509_1_alg».proof.Proof.KernelValue
import Idealize.ShloMosaic.Adequacy
import Idealize.ShloMosaic.Init

noncomputable section

namespace Cert.Proof

open Idealize.ShloMosaic Idealize.ShloMosaic.TcCoe Idealize.SL.Sem

/-- The printed kernel terminates without a fault and leaves its arguments as they were. -/
theorem frame_kernel : Cert.frame_Kernel := fun m ρ _ => Cert.Kernel.GenP.frame m ρ

/-- So does the kernel read over the extended reals. -/
theorem frame_kernelIdeal : Cert.frame_KernelIdeal := fun m ρ _ => Cert.KernelIdeal.GenP.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the loss of the arguments in their result buffer: the kernel by the tiles' row costs summed, the
    reference by its rows read at coordinates; the arguments agree, so the results are equal. -/
theorem algebraic : Cert.algebraic_KernelIdeal_ReferenceIdeal := by
  intro m ρ m' ρ' _ hagree
  refine ⟨fun c _ => Triplet.total (Cert.KernelIdeal.RowsValue.xs m c) (Cert.KernelIdeal.RowsValue.idsOf m c),
    Cert.KernelIdeal.RowsValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v26_eq, Cert.ReferenceIdeal.RefRows.total_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
